-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S1x4x16 : Shape := ⟨3, ![1, 4, 16]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1x4x16 : S_.BroadcastsInDim S1x4x16 (![] : Fin 0 → Fin S1x4x16.rank)
  reducesTo_S1x4x16_S_d0_1_2 : S1x4x16.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S1x4x16 1) : IVec S_ 1 :=
  let main_c_5 : IVec S_ 1 := constantI S_ 1 1#1
  let main_v17 : IVec S_ 1 := (fun x v => Host.reduce IntOp.andi x v reducesTo_S1x4x16_S_d0_1_2 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S1x4x16 .f32) (main_arg4 : FVec F S1x4x16 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x4x16 .f32 := Host.absf main_arg3
  let main_cst_2 : FVec F S_ .f32 := constant S_ .f32 0x7F800000#32
  let main_v10 : FVec F S1x4x16 .f32 := broadcastInDim S1x4x16 ![] bcast_S_S1x4x16 main_cst_2
  let main_v11 : IVec S1x4x16 1 := cmpf .olt main_v9 main_v10
  let main_c_3 : IVec S_ 1 := constantI S_ 1 1#1
  let main_v12 : IVec S_ 1 := (fun x v => Host.reduce IntOp.andi x v reducesTo_S1x4x16_S_d0_1_2 h_S_) main_v11 main_c_3
  let main_v13 : IVec S_ 1 := andi main_v8 main_v12
  let main_v14 : FVec F S1x4x16 .f32 := Host.absf main_arg4
  let main_cst_4 : FVec F S_ .f32 := constant S_ .f32 0x7F800000#32
  let main_v15 : FVec F S1x4x16 .f32 := broadcastInDim S1x4x16 ![] bcast_S_S1x4x16 main_cst_4
  let main_v16 : IVec S1x4x16 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S1x4x16 : Shape := ⟨3, ![1, 4, 16]⟩
abbrev S64 : Shape := ⟨1, ![64]⟩
abbrev S50000x64 : Shape := ⟨2, ![50000, 64]⟩
abbrev S5000x128 : Shape := ⟨2, ![5000, 128]⟩
abbrev S5000x64 : Shape := ⟨2, ![5000, 64]⟩
abbrev S50000x4x16 : Shape := ⟨3, ![50000, 4, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4x16 : Shape := ⟨3, ![800000, 4, 16]⟩
abbrev S800000x4 : Shape := ⟨2, ![800000, 4]⟩
abbrev S50000x4 : Shape := ⟨2, ![50000, 4]⟩
abbrev S800000x4x1 : Shape := ⟨3, ![800000, 4, 1]⟩
abbrev S1x64 : Shape := ⟨2, ![1, 64]⟩

abbrev nBuf : Space → Nat
  | .hbm => 79
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S64, .f32⟩
  | .hbm, ⟨6, _⟩ => ⟨S50000x64, .f32⟩
  | .hbm, ⟨7, _⟩ => ⟨S50000x4x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x4x16, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x4x16, .f32⟩
  | .hbm, ⟨30, _⟩ => ⟨S800000x4x16, .f32⟩
  | .hbm, ⟨31, _⟩ => ⟨S800000x4x16, .f32⟩
  | .hbm, ⟨32, _⟩ => ⟨S_, .f32⟩
  | .hbm, ⟨33, _⟩ => ⟨S800000x4, .f32⟩
  | .hbm, ⟨34, _⟩ => ⟨S800000x4x16, .f32⟩
  | .hbm, ⟨35, _⟩ => ⟨S800000x4x16, .f32⟩
  | .hbm, ⟨36, _⟩ => ⟨S_, .f32⟩
  | .hbm, ⟨37, _⟩ => ⟨S800000x4, .f32⟩
  | .hbm, ⟨38, _⟩ => ⟨S800000x4, .f32⟩
  | .hbm, ⟨39, _⟩ => ⟨S_, .f32⟩
  | .hbm, ⟨40, _⟩ => ⟨S800000x4, .f32⟩
  | .hbm, ⟨41, _⟩ => ⟨S800000x4, .i1⟩
  | .hbm, ⟨42, _⟩ => ⟨S_, .f32⟩
  | .hbm, ⟨43, _⟩ => ⟨S800000x4, .f32⟩
  | .hbm, ⟨44, _⟩ => ⟨S800000x4, .f32⟩
  | .hbm, ⟨45, _⟩ => ⟨S800000x4, .f32⟩
  | .hbm, ⟨46, _⟩ => ⟨S_, .f32⟩
  | .hbm, ⟨47, _⟩ => ⟨S_, .f32⟩
  | .hbm, ⟨48, _⟩ => ⟨S800000x4, .f32⟩
  | .hbm, ⟨49, _⟩ => ⟨S800000x4, .f32⟩
  | .hbm, ⟨50, _⟩ => ⟨S800000x4, .f32⟩
  | .hbm, ⟨51, _⟩ => ⟨S_, .f32⟩
  | .hbm, ⟨52, _⟩ => ⟨S50000x4, .f32⟩
  | .hbm, ⟨53, _⟩ => ⟨S800000x1, .i32⟩
  | .hbm, ⟨54, _⟩ => ⟨S50000x4, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x4, .f32⟩
  | .hbm, ⟨64, _⟩ => ⟨S_, .f32⟩
  | .hbm, ⟨65, _⟩ => ⟨S800000x4, .f32⟩
  | .hbm, ⟨66, _⟩ => ⟨S800000x4, .f32⟩
  | .hbm, ⟨67, _⟩ => ⟨S800000x4, .f32⟩
  | .hbm, ⟨68, _⟩ => ⟨S800000x4x1, .f32⟩
  | .hbm, ⟨69, _⟩ => ⟨S800000x4x16, .f32⟩
  | .hbm, ⟨70, _⟩ => ⟨S800000x4x16, .f32⟩
  | .hbm, ⟨71, _⟩ => ⟨S_, .f32⟩
  | .hbm, ⟨72, _⟩ => ⟨S50000x4x16, .f32⟩
  | .hbm, ⟨73, _⟩ => ⟨S800000x1, .i32⟩
  | .hbm, ⟨74, _⟩ => ⟨S50000x4x16, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  shapeCasts_S50000x64_S50000x4x16 : S50000x64.ShapeCasts S50000x4x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S1x4x16_S800000x4x16_0_1_2 : S1x4x16.BroadcastsInDim S800000x4x16 (![0, 1, 2] : Fin 3 → Fin S800000x4x16.rank)
  reducesTo_S800000x4x16_S800000x4_d2 : S800000x4x16.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x16_0_1_2 : S800000x4x1.BroadcastsInDim S800000x4x16 (![0, 1, 2] : Fin 3 → Fin S800000x4x16.rank)
  bcast_S_S50000x4x16 : S_.BroadcastsInDim S50000x4x16 (![] : Fin 0 → Fin S50000x4x16.rank)
  shapeCasts_S50000x4x16_S50000x64 : S50000x4x16.ShapeCasts S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x64_S5000x64_1_0_0_1_n_n_wf : DotDims.WF S5000x128 S128x64 S5000x64 [1] [0] [0] [1] [] []
  gather_S50000x4x16_S800000x1_S800000x4x16_12_0_n_n_0_1_1416_wf : GatherDims.WF S50000x4x16 S800000x1 S800000x4x16 [1, 2] [0] [] [0] [] 1 ![1, 4, 16]
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x16_S800000x1_S800000x4x16_12_0_0_1_wf : ScatterDims.WF S50000x4x16 S800000x1 S800000x4x16 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x4x16_S800000x1_S800000x4x16_12_0_n_n_0_1_1416 : GatherDims S50000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S50000x4x16_S800000x1_S800000x4x16_12_0_n_n_0_1_1416_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x16_S800000x1_S800000x4x16_12_0_0_1 : ScatterDims S50000x4x16 S800000x1 S800000x4x16 where
  updateWindowDims := [1, 2]
  insertedWindowDims := [0]
  scatterDimsToOperandDims := [0]
  indexVectorDim := 1
  wf := scatter_S50000x4x16_S800000x1_S800000x4x16_12_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S1x4x16 : Shape := ⟨3, ![1, 4, 16]⟩
abbrev S64 : Shape := ⟨1, ![64]⟩
abbrev S50000x64 : Shape := ⟨2, ![50000, 64]⟩
abbrev S50000x4x16 : Shape := ⟨3, ![50000, 4, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x4x16 : Shape := ⟨3, ![800000, 4, 16]⟩
abbrev S800000x4 : Shape := ⟨2, ![800000, 4]⟩
abbrev S50000x4 : Shape := ⟨2, ![50000, 4]⟩
abbrev S800000x4x1 : Shape := ⟨3, ![800000, 4, 1]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S1x4x16, .f32⟩
  | .hbm, ⟨4, _⟩ => ⟨S1x4x16, .f32⟩
  | .hbm, ⟨5, _⟩ => ⟨S64, .f32⟩
  | .hbm, ⟨6, _⟩ => ⟨S50000x64, .f32⟩
  | .hbm, ⟨7, _⟩ => ⟨S50000x4x16, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x4x16, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x4x16, .f32⟩
  | .hbm, ⟨30, _⟩ => ⟨S800000x4x16, .f32⟩
  | .hbm, ⟨31, _⟩ => ⟨S800000x4x16, .f32⟩
  | .hbm, ⟨32, _⟩ => ⟨S_, .f32⟩
  | .hbm, ⟨33, _⟩ => ⟨S800000x4, .f32⟩
  | .hbm, ⟨34, _⟩ => ⟨S800000x4x16, .f32⟩
  | .hbm, ⟨35, _⟩ => ⟨S800000x4x16, .f32⟩
  | .hbm, ⟨36, _⟩ => ⟨S_, .f32⟩
  | .hbm, ⟨37, _⟩ => ⟨S800000x4, .f32⟩
  | .hbm, ⟨38, _⟩ => ⟨S800000x4, .f32⟩
  | .hbm, ⟨39, _⟩ => ⟨S_, .f32⟩
  | .hbm, ⟨40, _⟩ => ⟨S800000x4, .f32⟩
  | .hbm, ⟨41, _⟩ => ⟨S800000x4, .i1⟩
  | .hbm, ⟨42, _⟩ => ⟨S_, .f32⟩
  | .hbm, ⟨43, _⟩ => ⟨S800000x4, .f32⟩
  | .hbm, ⟨44, _⟩ => ⟨S800000x4, .f32⟩
  | .hbm, ⟨45, _⟩ => ⟨S800000x4, .f32⟩
  | .hbm, ⟨46, _⟩ => ⟨S_, .f32⟩
  | .hbm, ⟨47, _⟩ => ⟨S_, .f32⟩
  | .hbm, ⟨48, _⟩ => ⟨S800000x4, .f32⟩
  | .hbm, ⟨49, _⟩ => ⟨S800000x4, .f32⟩
  | .hbm, ⟨50, _⟩ => ⟨S800000x4, .f32⟩
  | .hbm, ⟨51, _⟩ => ⟨S_, .f32⟩
  | .hbm, ⟨52, _⟩ => ⟨S50000x4, .f32⟩
  | .hbm, ⟨53, _⟩ => ⟨S800000x1, .i32⟩
  | .hbm, ⟨54, _⟩ => ⟨S50000x4, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x4, .f32⟩
  | .hbm, ⟨64, _⟩ => ⟨S_, .f32⟩
  | .hbm, ⟨65, _⟩ => ⟨S800000x4, .f32⟩
  | .hbm, ⟨66, _⟩ => ⟨S800000x4, .f32⟩
  | .hbm, ⟨67, _⟩ => ⟨S800000x4, .f32⟩
  | .hbm, ⟨68, _⟩ => ⟨S800000x4x1, .f32⟩
  | .hbm, ⟨69, _⟩ => ⟨S800000x4x16, .f32⟩
  | .hbm, ⟨70, _⟩ => ⟨S800000x4x16, .f32⟩
  | .hbm, ⟨71, _⟩ => ⟨S_, .f32⟩
  | .hbm, ⟨72, _⟩ => ⟨S50000x4x16, .f32⟩
  | .hbm, ⟨73, _⟩ => ⟨S800000x1, .i32⟩
  | .hbm, ⟨74, _⟩ => ⟨S50000x4x16, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  shapeCasts_S50000x64_S50000x4x16 : S50000x64.ShapeCasts S50000x4x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S1x4x16_S800000x4x16_0_1_2 : S1x4x16.BroadcastsInDim S800000x4x16 (![0, 1, 2] : Fin 3 → Fin S800000x4x16.rank)
  reducesTo_S800000x4x16_S800000x4_d2 : S800000x4x16.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x16_0_1_2 : S800000x4x1.BroadcastsInDim S800000x4x16 (![0, 1, 2] : Fin 3 → Fin S800000x4x16.rank)
  bcast_S_S50000x4x16 : S_.BroadcastsInDim S50000x4x16 (![] : Fin 0 → Fin S50000x4x16.rank)
  shapeCasts_S50000x4x16_S50000x64 : S50000x4x16.ShapeCasts S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x4x16_S800000x1_S800000x4x16_12_0_n_n_0_1_1416_wf : GatherDims.WF S50000x4x16 S800000x1 S800000x4x16 [1, 2] [0] [] [0] [] 1 ![1, 4, 16]
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x16_S800000x1_S800000x4x16_12_0_0_1_wf : ScatterDims.WF S50000x4x16 S800000x1 S800000x4x16 [1, 2] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x4x16_S800000x1_S800000x4x16_12_0_n_n_0_1_1416 : GatherDims S50000x4x16 S800000x1 S800000x4x16 where
  offsetDims := [1, 2]
  collapsedSliceDims := [0]
  operandBatchingDims := []
  startIndicesBatchingDims := []
  startIndexMap := [0]
  indexVectorDim := 1
  sliceSizes := ![1, 4, 16]
  wf := gather_S50000x4x16_S800000x1_S800000x4x16_12_0_n_n_0_1_1416_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x16_S800000x1_S800000x4x16_12_0_0_1 : ScatterDims S50000x4x16 S800000x1 S800000x4x16 where
  updateWindowDims := [1, 2]
  insertedWindowDims := [0]
  scatterDimsToOperandDims := [0]
  indexVectorDim := 1
  wf := scatter_S50000x4x16_S800000x1_S800000x4x16_12_0_0_1_wf

class Facts : Prop extends Facts₀ where

variable [Facts]
-- ==== Proof.AroundBits.lean ====
/-
  The program runs ONE tiled matrix product and then seventy-two host operations.  The product is taken ten
  times, once per block of 5000 rows of the left operand: at grid point `t` the body reads rows
  `5000·t … 5000·t + 4999` of the left operand (window 0) and the whole right operand (window 1, brought in at the
  first point and kept), and stores into rows `5000·t …` of the result (window 2) the product of the two blocks.
  This module states that run for any float instance: every fair execution of the program ends, nothing faults, the
  result array of the product is what the ten points wrote back, and every other array is what the later host
  operations leave from the contents at entry — in particular the six argument arrays end as they started, because
  no host operation and no write-back names one of them.
-/
import proofs.«414965_j24008867184975_3_alg».proof.Proof.Gen.Kernel.Launch
import proofs.«414965_j24008867184975_3_alg».proof.Proof.Gen.Kernel.Skeleton
import proofs.«414965_j24008867184975_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the product -/

/-- Nothing precedes the product: the contents at its entry are the contents at launch. -/
abbrev entry (c : Dev nD) : Valuation τ sig (Elt F) :=
  StableHlo.after (List.flatten ([] : List (List (HloOp τ sig (Elt F))))) (fun b => m (c, b))

/-- The same, read at a reference of the core. -/
abbrev entryAt (c : Dev nD) (b : Ref sig .tc) : Buf (Elt F) ((c : Thread nD τ).loc b) := entry m c (Proc.devRef .tc b)

theorem entryAt_eq (c : Dev nD) (b : Ref sig .tc) : entryAt m c b = m ((c : Thread nD τ).loc b) := rfl

/-- The three stretches of host operations that follow the product. -/
abbrev later : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is the product followed by the later operations, -/
theorem chain_eq (c : Dev nD) : main (F := F) c = Pipeline.chain (([] : List (List (HloOp τ sig (Elt F)))).map StableHlo.seq
    ++ [Prog.lift (.customCall (Pipeline.entry 0) ())] ++ (later : List (List (HloOp τ sig (Elt F)))).map StableHlo.seq) :=
  main_chain c

set_option maxHeartbeats 4000000 in
/-- and the library's reading of that: the product's region continued by the later operations. -/
theorem around (𝒱₀ : Variants) : Pipeline.HMainK (Ix := Unit) (Name := ℕ) (U := UR sig nD τ) (Lvl := ℕ) cfgs 0 defs₀ 𝒱₀ m (main (F := F)) (entryAt m)
      (fun _ => Pipeline.chain ((later : List (List (HloOp τ sig (Elt F)))).map StableHlo.seq)) :=
  Pipeline.hmain_around cfgs 0 defs₀ 𝒱₀ m main [] later trivial trivial chain_eq

/-- Each later operation reads and writes unscoped buffers of the core only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- None allocates. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every later operation writes its own result buffer and nothing else, and no result buffer of theirs is an
    argument array or the product's result: decided reference by reference. -/
local macro "never_written" : tactic => `(tactic| (
  refine List.forall_iff_forall_mem.mp ?_
  simp only [later, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem arg0_unwritten : ∀ op ∈ (later : List (List (HloOp τ sig (Elt F)))).flatten, Proc.devRef .tc main_arg0 ∉ op.writes := by never_written
theorem arg1_unwritten : ∀ op ∈ (later : List (List (HloOp τ sig (Elt F)))).flatten, Proc.devRef .tc main_arg1 ∉ op.writes := by never_written
theorem arg2_unwritten : ∀ op ∈ (later : List (List (HloOp τ sig (Elt F)))).flatten, Proc.devRef .tc main_arg2 ∉ op.writes := by never_written
theorem arg3_unwritten : ∀ op ∈ (later : List (List (HloOp τ sig (Elt F)))).flatten, Proc.devRef .tc main_arg3 ∉ op.writes := by never_written
theorem arg4_unwritten : ∀ op ∈ (later : List (List (HloOp τ sig (Elt F)))).flatten, Proc.devRef .tc main_arg4 ∉ op.writes := by never_written
theorem arg5_unwritten : ∀ op ∈ (later : List (List (HloOp τ sig (Elt F)))).flatten, Proc.devRef .tc main_arg5 ∉ op.writes := by never_written
theorem product_unwritten : ∀ op ∈ (later : List (List (HloOp τ sig (Elt F)))).flatten, Proc.devRef .tc main_v0 ∉ op.writes := by never_written

/-- So none writes an array the product's windows stage. -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ (later : List (List (HloOp τ sig (Elt F)))).flatten := List.mem_flatten.mpr ⟨ops, hops, hop⟩
  fin_cases w
  · exact arg0_unwritten op hmem
  · exact arg2_unwritten op hmem
  · exact product_unwritten op hmem

end Cert.Kernel.Around

end
-- ==== Proof.PointBits.lean ====
/-
  One grid point of the tiled product, on the three staging buffers it is called with.  The body reads the block of
  5000 rows of the left operand and the whole right operand, reads the result buffer without using what it read, and
  overwrites the result buffer, through one rectangle that is the whole buffer, with the product of the two values
  it read.  So whatever the result buffer held, it ends holding that product, and the two operand buffers are as they
  were.  Stated for any float instance and any continuation.
-/
import proofs.«414965_j24008867184975_3_alg».proof.Proof.Gen.Kernel.Skeleton
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body reads and writes through: each is its whole buffer. -/
abbrev wholeLeft : Rect S5000x128 := Rect.unit (s := S5000x128) ![0, 0] S5000x128.size inb_S5000x128_S5000x128_0_0
abbrev wholeRight : Rect S128x64 := Rect.unit (s := S128x64) ![0, 0] S128x64.size inb_S128x64_S128x64_0_0
abbrev wholeOut : Rect S5000x64 := Rect.unit (s := S5000x64) ![0, 0] S5000x64.size inb_S5000x64_S5000x64_0_0

/-- What the one store leaves in the result buffer, from what the two loads read. -/
def stored (x : Vec F S5000x128 .f32) (w : Vec F S128x64 .f32) : Vec F S5000x64 .f32 :=
  View.canon [⟨wholeOut, k0_pay1 (View.ld x wholeLeft) (View.ld w wholeRight)⟩]

theorem zero2 : (![0, 0] : Fin 2 → Nat) = fun _ => 0 := by
  funext a; fin_cases a <;> rfl

/-- Reading and writing through whole-buffer rectangles changes nothing: the buffer ends at the product of the two
    operand values. -/
theorem stored_eq (x : Vec F S5000x128 .f32) (w : Vec F S128x64 .f32) : stored x w = k0_pay1 x w := by
  unfold stored
  rw [View.canon_unit_zero zero2]
  simp only [View.ld_unit_zero (S := S5000x128) zero2, View.ld_unit_zero (S := S128x64) zero2]

/-- The store's rectangle is the whole buffer, so it covers it. -/
theorem stored_covers (p : Vec F S5000x64 .f32) (y : S5000x64.Idx) :
    ∃ pc ∈ ([⟨wholeOut, p⟩] : List (View.Piece (Elt F) S5000x64 .f32)), y ∈ pc.1.set :=
  View.cover_of_tiled [⟨wholeOut, p⟩] S5000x64.size (by rfl) y

set_option maxHeartbeats 1000000 in
/-- The body, on whole staging buffers holding `x`, `w` and anything: it returns with the first two unchanged and the
    third at `stored x w`. -/
theorem triple (c : Dev nD) (E : Set ℕ) (i : grid0.Coords)
    (a1 : Memref sig .tc .vmem S5000x128 .f32) (h1 : a1.IsWhole) (a2 : Memref sig .tc .vmem S128x64 .f32) (h2 : a2.IsWhole)
    (a3 : Memref sig .tc .vmem S5000x64 .f32) (h3 : a3.IsWhole)
    (x : Vec F S5000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (stored x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

end Cert.Kernel.Point

end
-- ==== Proof.RunBits.lean ====
/-
  The run of the whole program, for any float instance.  The proof data of the one tiled product says, per core: each
  staged array is what it was at entry; after the body at grid point `t` the two operand buffers still hold their
  blocks (rows `5000·t …` of the left operand; the whole right operand, which is brought in once and never moves) and
  the result buffer holds the product of those two blocks.  With the body's triple this gives the library's obligation at
  every point, hence the run: the program ends without a fault, the product's result array holds what the ten points
  wrote back, and every other unscoped buffer holds what the later host operations leave.  The argument arrays are among
  those and none of the later operations writes one, so each ends as launched: the frame.
-/
import proofs.«414965_j24008867184975_3_alg».proof.Proof.AroundBits
import proofs.«414965_j24008867184975_3_alg».proof.Proof.PointBits

set_option maxRecDepth 16384

noncomputable section

namespace Cert.Kernel.Run

open Cert.Kernel Cert.Kernel.Gen Cert.Kernel.Around Cert.Kernel.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at grid point `t`, read off the window's array as it is at entry. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The proof data of the tiled product on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_left (c : Dev nD) (t : Fin cfg0.N) : (dats m 0 c).after 0 t = blockAt m c 0 t := by dsimp only [dats]
theorem after_right (c : Dev nD) (t : Fin cfg0.N) : (dats m 0 c).after 1 t = blockAt m c 1 t := by dsimp only [dats]
theorem after_out (c : Dev nD) (t : Fin cfg0.N) :
    (dats m 0 c).after 2 t = stored (blockAt m c 0 t) (blockAt m c 1 t) := by dsimp only [dats]

/-- At every point the left operand's current staging buffer holds that point's block. -/
theorem before_left (c : Dev nD) (t : Fin cfg0.N) (d) : (dats m 0 c).before 0 t d = blockAt m c 0 t :=
  ((dats m 0 c).before_in_eq_fetched 0 rfl (fun _ => rfl) (fun _ _ _ => rfl)
      (fun t => by rw [after_left]; unfold Dat.blockOf blockAt; rw [arrays_eq]; try rfl) t d).trans
    (by unfold Dat.fetched Dat.blockOf blockAt; rw [arrays_eq]; try rfl)

/-- The right operand's buffer holds the right operand at every point, though it is fetched at the first only: its
    block index never moves. -/
theorem before_right (c : Dev nD) (t : Fin cfg0.N) (d) : (dats m 0 c).before 1 t d = blockAt m c 1 t :=
  ((dats m 0 c).before_in_eq_fetched 1 rfl (fun _ => rfl) (fun _ _ _ => rfl)
      (fun t => by rw [after_right]; unfold Dat.blockOf blockAt; rw [arrays_eq]; try rfl) t d).trans
    (by unfold Dat.fetched Dat.blockOf blockAt; rw [arrays_eq]; try rfl)

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two operand buffers hold their blocks, so the body's triple applies; what the pipeline keeps
    for itself passes through untouched. -/
theorem point (c : Dev nD) (t : Fin cfg0.N) :
    pointPre m c t ⊢ wp frame (wpE (defs₀ (F := F)) Variants.none c none) Set.univ (bodyAt0 t) (fun _ => pointPost m c t) := by
  unfold pointPre pointPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_out]
  iintro ⟨HΦ, Ho, ⟨%d0, H0⟩, ⟨%d1, H1⟩, ⟨%d2, H2⟩⟩
  iapply (triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation, at every point. -/
theorem obligation (c : Dev nD) : BodyObligation (dats (F := F) m 0 c) (defs₀ (F := F)) Variants.none () Set.univ := fun t => by
  rw [bigSep_W0, bigSep_W0]
  exact point m c t

set_option backward.isDefEq.respectTransparency.types false in
/-- THE RUN: every weakly fair execution of the program ends, without a fault, with the product's arrays at what the
    proof data say and every other unscoped buffer as the later operations leave it. -/
theorem run : θ_run defs (onTc (τ := τ) (main (F := F))) (s₀ m ρ)
    (Pipeline.FramePost cfgs (dats m) 0 (Pipeline.afterTail₀ cfgs (dats m) 0 (entry m) later)) :=
  Pipeline.θ_run_frame_around cfgs (dats m) (0 : Fin 1) launch0 defs₀ Variants.none m ρ main
    (hbody := fun c => (obligation m c).loose) (hshare := fun c => (dats m 0 c).share_full fun _ => rfl)
    (howed := fun _ _ => rfl) (V₀ := entry m) (opss := later) (hsub := later_sub) (hfresh := later_fresh) (hkeep := later_keeps)
    (hmain := around m Variants.none) (hA := arrays_eq m) (hΦ := fun _ _ => rfl)

/-- A buffer that is no array of the product and that no later operation writes ends as launched. -/
theorem kept (c : Dev nD) (b : Ref sig .tc)
    (hb : ∀ op ∈ (later : List (List (HloOp τ sig (Elt F)))).flatten, Proc.devRef .tc b ∉ op.writes)
    (hne : ∀ w, Pipeline.arrRef spec0 w ≠ b) :
    Pipeline.afterTail₀ cfgs (dats m) 0 (entry m) later c b = m ((c : Thread nD τ).loc b) := by
  unfold Pipeline.afterTail₀
  rw [StableHlo.after_of_forall_not_mem (b := Proc.devRef .tc b) _ _ hb,
    Pipeline.withArrays_of_ne _ c (entry m c) _ b hne]
  rfl

/-- In any final state of the run the six argument arrays are as launched. The two operands of the product are staged
    arrays that no point writes back; the other four are buffers the product does not touch and no later operation writes. -/
theorem arguments_kept {r : PUnit × MemSt nD τ sig (Elt F)}
    (h : Pipeline.FramePost cfgs (dats m) 0 (Pipeline.afterTail₀ cfgs (dats m) 0 (entry m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (arrays_eq m c 0)),
   ((h c).2 main_arg1 (Pipeline.mem_restRefs_of main_arg1 (by decide) (by decide))).trans (kept m c main_arg1 arg1_unwritten (by decide)),
   ((h c).1 1).trans (((dats m 0 c).arrAt_in 1 rfl _).trans (arrays_eq m c 1)),
   ((h c).2 main_arg3 (Pipeline.mem_restRefs_of main_arg3 (by decide) (by decide))).trans (kept m c main_arg3 arg3_unwritten (by decide)),
   ((h c).2 main_arg4 (Pipeline.mem_restRefs_of main_arg4 (by decide) (by decide))).trans (kept m c main_arg4 arg4_unwritten (by decide)),
   ((h c).2 main_arg5 (Pipeline.mem_restRefs_of main_arg5 (by decide) (by decide))).trans (kept m c main_arg5 arg5_unwritten (by decide))⟩

/-- THE FRAME: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => arguments_kept m h c) (run m ρ)

end Cert.Kernel.Run

end
-- ==== Proof.AroundIdeal.lean ====
/-
  The program runs ONE tiled matrix product and then seventy-two host operations.  The product is taken ten
  times, once per block of 5000 rows of the left operand: at grid point `t` the body reads rows
  `5000·t … 5000·t + 4999` of the left operand (window 0) and the whole right operand (window 1, brought in at the
  first point and kept), and stores into rows `5000·t …` of the result (window 2) the product of the two blocks.
  This module states that run for any float instance: every fair execution of the program ends, nothing faults, the
  result array of the product is what the ten points wrote back, and every other array is what the later host
  operations leave from the contents at entry — in particular the six argument arrays end as they started, because
  no host operation and no write-back names one of them.
-/
import proofs.«414965_j24008867184975_3_alg».proof.Proof.Gen.KernelIdeal.Launch
import proofs.«414965_j24008867184975_3_alg».proof.Proof.Gen.KernelIdeal.Skeleton
import proofs.«414965_j24008867184975_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the product -/

/-- Nothing precedes the product: the contents at its entry are the contents at launch. -/
abbrev entry (c : Dev nD) : Valuation τ sig (Elt F) :=
  StableHlo.after (List.flatten ([] : List (List (HloOp τ sig (Elt F))))) (fun b => m (c, b))

/-- The same, read at a reference of the core. -/
abbrev entryAt (c : Dev nD) (b : Ref sig .tc) : Buf (Elt F) ((c : Thread nD τ).loc b) := entry m c (Proc.devRef .tc b)

theorem entryAt_eq (c : Dev nD) (b : Ref sig .tc) : entryAt m c b = m ((c : Thread nD τ).loc b) := rfl

/-- The three stretches of host operations that follow the product. -/
abbrev later : List (List (HloOp τ sig (Elt F))) := [hostOps1, hostOps1_1, hostOps1_2]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
/-- The program is the product followed by the later operations, -/
theorem chain_eq (c : Dev nD) : main (F := F) c = Pipeline.chain (([] : List (List (HloOp τ sig (Elt F)))).map StableHlo.seq
    ++ [Prog.lift (.customCall (Pipeline.entry 0) ())] ++ (later : List (List (HloOp τ sig (Elt F)))).map StableHlo.seq) :=
  main_chain c

set_option maxHeartbeats 4000000 in
/-- and the library's reading of that: the product's region continued by the later operations. -/
theorem around (𝒱₀ : Variants) : Pipeline.HMainK (Ix := Unit) (Name := ℕ) (U := UR sig nD τ) (Lvl := ℕ) cfgs 0 defs₀ 𝒱₀ m (main (F := F)) (entryAt m)
      (fun _ => Pipeline.chain ((later : List (List (HloOp τ sig (Elt F)))).map StableHlo.seq)) :=
  Pipeline.hmain_around cfgs 0 defs₀ 𝒱₀ m main [] later trivial trivial chain_eq

/-- Each later operation reads and writes unscoped buffers of the core only. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [later, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- None allocates. -/
theorem later_fresh : ∀ ops ∈ (later : List (List (HloOp τ sig (Elt F)))), ∀ op ∈ ops, op.fresh = ∅ := by
  intro ops hops op hop
  simp only [later, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every later operation writes its own result buffer and nothing else, and no result buffer of theirs is an
    argument array or the product's result: decided reference by reference. -/
local macro "never_written" : tactic => `(tactic| (
  refine List.forall_iff_forall_mem.mp ?_
  simp only [later, hostOps1, hostOps1_1, hostOps1_2, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem arg0_unwritten : ∀ op ∈ (later : List (List (HloOp τ sig (Elt F)))).flatten, Proc.devRef .tc main_arg0 ∉ op.writes := by never_written
theorem arg1_unwritten : ∀ op ∈ (later : List (List (HloOp τ sig (Elt F)))).flatten, Proc.devRef .tc main_arg1 ∉ op.writes := by never_written
theorem arg2_unwritten : ∀ op ∈ (later : List (List (HloOp τ sig (Elt F)))).flatten, Proc.devRef .tc main_arg2 ∉ op.writes := by never_written
theorem arg3_unwritten : ∀ op ∈ (later : List (List (HloOp τ sig (Elt F)))).flatten, Proc.devRef .tc main_arg3 ∉ op.writes := by never_written
theorem arg4_unwritten : ∀ op ∈ (later : List (List (HloOp τ sig (Elt F)))).flatten, Proc.devRef .tc main_arg4 ∉ op.writes := by never_written
theorem arg5_unwritten : ∀ op ∈ (later : List (List (HloOp τ sig (Elt F)))).flatten, Proc.devRef .tc main_arg5 ∉ op.writes := by never_written
theorem product_unwritten : ∀ op ∈ (later : List (List (HloOp τ sig (Elt F)))).flatten, Proc.devRef .tc main_v0 ∉ op.writes := by never_written

/-- So none writes an array the product's windows stage. -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ (later : List (List (HloOp τ sig (Elt F)))).flatten := List.mem_flatten.mpr ⟨ops, hops, hop⟩
  fin_cases w
  · exact arg0_unwritten op hmem
  · exact arg2_unwritten op hmem
  · exact product_unwritten op hmem

end Cert.KernelIdeal.Around

end
-- ==== Proof.PointIdeal.lean ====
/-
  One grid point of the tiled product, on the three staging buffers it is called with.  The body reads the block of
  5000 rows of the left operand and the whole right operand, reads the result buffer without using what it read, and
  overwrites the result buffer, through one rectangle that is the whole buffer, with the product of the two values
  it read.  So whatever the result buffer held, it ends holding that product, and the two operand buffers are as they
  were.  Stated for any float instance and any continuation.
-/
import proofs.«414965_j24008867184975_3_alg».proof.Proof.Gen.KernelIdeal.Skeleton
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body reads and writes through: each is its whole buffer. -/
abbrev wholeLeft : Rect S5000x128 := Rect.unit (s := S5000x128) ![0, 0] S5000x128.size inb_S5000x128_S5000x128_0_0
abbrev wholeRight : Rect S128x64 := Rect.unit (s := S128x64) ![0, 0] S128x64.size inb_S128x64_S128x64_0_0
abbrev wholeOut : Rect S5000x64 := Rect.unit (s := S5000x64) ![0, 0] S5000x64.size inb_S5000x64_S5000x64_0_0

/-- What the one store leaves in the result buffer, from what the two loads read. -/
def stored (x : Vec F S5000x128 .f32) (w : Vec F S128x64 .f32) : Vec F S5000x64 .f32 :=
  View.canon [⟨wholeOut, k0_pay1 (View.ld x wholeLeft) (View.ld w wholeRight)⟩]

theorem zero2 : (![0, 0] : Fin 2 → Nat) = fun _ => 0 := by
  funext a; fin_cases a <;> rfl

/-- Reading and writing through whole-buffer rectangles changes nothing: the buffer ends at the product of the two
    operand values. -/
theorem stored_eq (x : Vec F S5000x128 .f32) (w : Vec F S128x64 .f32) : stored x w = k0_pay1 x w := by
  unfold stored
  rw [View.canon_unit_zero zero2]
  simp only [View.ld_unit_zero (S := S5000x128) zero2, View.ld_unit_zero (S := S128x64) zero2]

/-- The store's rectangle is the whole buffer, so it covers it. -/
theorem stored_covers (p : Vec F S5000x64 .f32) (y : S5000x64.Idx) :
    ∃ pc ∈ ([⟨wholeOut, p⟩] : List (View.Piece (Elt F) S5000x64 .f32)), y ∈ pc.1.set :=
  View.cover_of_tiled [⟨wholeOut, p⟩] S5000x64.size (by rfl) y

set_option maxHeartbeats 1000000 in
/-- The body, on whole staging buffers holding `x`, `w` and anything: it returns with the first two unchanged and the
    third at `stored x w`. -/
theorem triple (c : Dev nD) (E : Set ℕ) (i : grid0.Coords)
    (a1 : Memref sig .tc .vmem S5000x128 .f32) (h1 : a1.IsWhole) (a2 : Memref sig .tc .vmem S128x64 .f32) (h2 : a2.IsWhole)
    (a3 : Memref sig .tc .vmem S5000x64 .f32) (h3 : a3.IsWhole)
    (x : Vec F S5000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (stored x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

end Cert.KernelIdeal.Point

end
-- ==== Proof.RunIdeal.lean ====
/-
  The run of the whole program, for any float instance.  The proof data of the one tiled product says, per core: each
  staged array is what it was at entry; after the body at grid point `t` the two operand buffers still hold their
  blocks (rows `5000·t …` of the left operand; the whole right operand, which is brought in once and never moves) and
  the result buffer holds the product of those two blocks.  With the body's triple this gives the library's obligation at
  every point, hence the run: the program ends without a fault, the product's result array holds what the ten points
  wrote back, and every other unscoped buffer holds what the later host operations leave.  The argument arrays are among
  those and none of the later operations writes one, so each ends as launched: the frame.
-/
import proofs.«414965_j24008867184975_3_alg».proof.Proof.AroundIdeal
import proofs.«414965_j24008867184975_3_alg».proof.Proof.PointIdeal

set_option maxRecDepth 16384

noncomputable section

namespace Cert.KernelIdeal.Run

open Cert.KernelIdeal Cert.KernelIdeal.Gen Cert.KernelIdeal.Around Cert.KernelIdeal.Point
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at grid point `t`, read off the window's array as it is at entry. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The proof data of the tiled product on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_left (c : Dev nD) (t : Fin cfg0.N) : (dats m 0 c).after 0 t = blockAt m c 0 t := by dsimp only [dats]
theorem after_right (c : Dev nD) (t : Fin cfg0.N) : (dats m 0 c).after 1 t = blockAt m c 1 t := by dsimp only [dats]
theorem after_out (c : Dev nD) (t : Fin cfg0.N) :
    (dats m 0 c).after 2 t = stored (blockAt m c 0 t) (blockAt m c 1 t) := by dsimp only [dats]

/-- At every point the left operand's current staging buffer holds that point's block. -/
theorem before_left (c : Dev nD) (t : Fin cfg0.N) (d) : (dats m 0 c).before 0 t d = blockAt m c 0 t :=
  ((dats m 0 c).before_in_eq_fetched 0 rfl (fun _ => rfl) (fun _ _ _ => rfl)
      (fun t => by rw [after_left]; unfold Dat.blockOf blockAt; rw [arrays_eq]; try rfl) t d).trans
    (by unfold Dat.fetched Dat.blockOf blockAt; rw [arrays_eq]; try rfl)

/-- The right operand's buffer holds the right operand at every point, though it is fetched at the first only: its
    block index never moves. -/
theorem before_right (c : Dev nD) (t : Fin cfg0.N) (d) : (dats m 0 c).before 1 t d = blockAt m c 1 t :=
  ((dats m 0 c).before_in_eq_fetched 1 rfl (fun _ => rfl) (fun _ _ _ => rfl)
      (fun t => by rw [after_right]; unfold Dat.blockOf blockAt; rw [arrays_eq]; try rfl) t d).trans
    (by unfold Dat.fetched Dat.blockOf blockAt; rw [arrays_eq]; try rfl)

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the two operand buffers hold their blocks, so the body's triple applies; what the pipeline keeps
    for itself passes through untouched. -/
theorem point (c : Dev nD) (t : Fin cfg0.N) :
    pointPre m c t ⊢ wp frame (wpE (defs₀ (F := F)) Variants.none c none) Set.univ (bodyAt0 t) (fun _ => pointPost m c t) := by
  unfold pointPre pointPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_out]
  iintro ⟨HΦ, Ho, ⟨%d0, H0⟩, ⟨%d1, H1⟩, ⟨%d2, H2⟩⟩
  iapply (triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation, at every point. -/
theorem obligation (c : Dev nD) : BodyObligation (dats (F := F) m 0 c) (defs₀ (F := F)) Variants.none () Set.univ := fun t => by
  rw [bigSep_W0, bigSep_W0]
  exact point m c t

set_option backward.isDefEq.respectTransparency.types false in
/-- THE RUN: every weakly fair execution of the program ends, without a fault, with the product's arrays at what the
    proof data say and every other unscoped buffer as the later operations leave it. -/
theorem run : θ_run defs (onTc (τ := τ) (main (F := F))) (s₀ m ρ)
    (Pipeline.FramePost cfgs (dats m) 0 (Pipeline.afterTail₀ cfgs (dats m) 0 (entry m) later)) :=
  Pipeline.θ_run_frame_around cfgs (dats m) (0 : Fin 1) launch0 defs₀ Variants.none m ρ main
    (hbody := fun c => (obligation m c).loose) (hshare := fun c => (dats m 0 c).share_full fun _ => rfl)
    (howed := fun _ _ => rfl) (V₀ := entry m) (opss := later) (hsub := later_sub) (hfresh := later_fresh) (hkeep := later_keeps)
    (hmain := around m Variants.none) (hA := arrays_eq m) (hΦ := fun _ _ => rfl)

/-- A buffer that is no array of the product and that no later operation writes ends as launched. -/
theorem kept (c : Dev nD) (b : Ref sig .tc)
    (hb : ∀ op ∈ (later : List (List (HloOp τ sig (Elt F)))).flatten, Proc.devRef .tc b ∉ op.writes)
    (hne : ∀ w, Pipeline.arrRef spec0 w ≠ b) :
    Pipeline.afterTail₀ cfgs (dats m) 0 (entry m) later c b = m ((c : Thread nD τ).loc b) := by
  unfold Pipeline.afterTail₀
  rw [StableHlo.after_of_forall_not_mem (b := Proc.devRef .tc b) _ _ hb,
    Pipeline.withArrays_of_ne _ c (entry m c) _ b hne]
  rfl

/-- In any final state of the run the six argument arrays are as launched. The two operands of the product are staged
    arrays that no point writes back; the other four are buffers the product does not touch and no later operation writes. -/
theorem arguments_kept {r : PUnit × MemSt nD τ sig (Elt F)}
    (h : Pipeline.FramePost cfgs (dats m) 0 (Pipeline.afterTail₀ cfgs (dats m) 0 (entry m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans (arrays_eq m c 0)),
   ((h c).2 main_arg1 (Pipeline.mem_restRefs_of main_arg1 (by decide) (by decide))).trans (kept m c main_arg1 arg1_unwritten (by decide)),
   ((h c).1 1).trans (((dats m 0 c).arrAt_in 1 rfl _).trans (arrays_eq m c 1)),
   ((h c).2 main_arg3 (Pipeline.mem_restRefs_of main_arg3 (by decide) (by decide))).trans (kept m c main_arg3 arg3_unwritten (by decide)),
   ((h c).2 main_arg4 (Pipeline.mem_restRefs_of main_arg4 (by decide) (by decide))).trans (kept m c main_arg4 arg4_unwritten (by decide)),
   ((h c).2 main_arg5 (Pipeline.mem_restRefs_of main_arg5 (by decide) (by decide))).trans (kept m c main_arg5 arg5_unwritten (by decide))⟩

/-- THE FRAME: the program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => arguments_kept m h c) (run m ρ)

end Cert.KernelIdeal.Run

end
-- ==== Proof.ProductEntries.lean ====
/-
  The product, entry by entry, over the extended reals.  Write `X` for the left operand (50000 × 128) and `W` for the
  right one (128 × 64).  Entry (r, c) of `X · W` is the sum over k < 128 of `X (r, k) · W (k, c)`.  A grid point multiplies
  a block of 5000 consecutive rows of `X`, starting at row `r₀`, by `W`, after changing both to a narrower float format and
  into an accumulator of zeros; over the extended reals a change of format does nothing and the zero accumulator adds
  nothing, so entry (p, c) of the block's product is the sum over k of `X (r₀ + p, k) · W (k, c)`: entry (r₀ + p, c) of
  `X · W`.  The reference takes the whole product in one host operation, which is the same sum.  No law beyond
  reindexing the sum is used: nothing here needs the entries to be finite.
-/
import proofs.«414965_j24008867184975_3_alg».proof.Proof.Gen.KernelIdeal.Skeleton
import proofs.«414965_j24008867184975_3_alg».proof.Proof.Gen.ReferenceIdeal.Read
import Idealize.ShloMosaic.Lib.ValueIdx
import Idealize.ShloMosaic.Lib.Pipeline.Value
import Idealize.ShloMosaic.PureOps.Ideal.Laws

noncomputable section

namespace Cert.KernelIdeal.Product

open Cert.KernelIdeal Cert.KernelIdeal.Gen Idealize.ShloMosaic Idealize.ShloMosaic.TcCoe Idealize.SL.Sem

/-- Row `r` (the row of `i`), column `k` of the left operand. -/
abbrev atLeft (i : S50000x64.Idx) (k : Fin 128) : S50000x128.Idx := fun a => match a with
  | ⟨0, _⟩ => ⟨(i 0).val, (i 0).isLt⟩
  | ⟨1, _⟩ => ⟨k.val, k.isLt⟩
/-- Row `k`, column `c` (the column of `i`) of the right operand. -/
abbrev atRight (i : S50000x64.Idx) (k : Fin 128) : S128x64.Idx := fun a => match a with
  | ⟨0, _⟩ => ⟨k.val, k.isLt⟩
  | ⟨1, _⟩ => ⟨(i 1).val, (i 1).isLt⟩

/-- `X · W`, entry by entry. -/
def whole (X : Vec Ideal S50000x128 .f32) (W : Vec Ideal S128x64 .f32) : Vec Ideal S50000x64 .f32 :=
  fun i => ∑ k : Fin 128, X (atLeft i k) * W (atRight i k)

/-! The block product's operand indices at output entry `y` and contracted index `q`: the row of `y` and `q` on the left,
    `q` and the column of `y` on the right. -/

theorem left_row (y : S5000x64.Idx) (q : dot_S5000x128_S128x64_S5000x64_1_0_0_1_n_n.contr.Idx) :
    (dot_S5000x128_S128x64_S5000x64_1_0_0_1_n_n.lhsIdx y q 0).val = (y 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem left_col (y : S5000x64.Idx) (q : dot_S5000x128_S128x64_S5000x64_1_0_0_1_n_n.contr.Idx) :
    (dot_S5000x128_S128x64_S5000x64_1_0_0_1_n_n.lhsIdx y q 1).val = (q ⟨0, by decide⟩).val :=
  dot_S5000x128_S128x64_S5000x64_1_0_0_1_n_n.lhsIdx_val_of_single rfl y q
theorem right_row (y : S5000x64.Idx) (q : dot_S5000x128_S128x64_S5000x64_1_0_0_1_n_n.contr.Idx) :
    (dot_S5000x128_S128x64_S5000x64_1_0_0_1_n_n.rhsIdx y q 0).val = (q ⟨0, by decide⟩).val :=
  dot_S5000x128_S128x64_S5000x64_1_0_0_1_n_n.rhsIdx_val_of_single rfl y q
theorem right_col (y : S5000x64.Idx) (q : dot_S5000x128_S128x64_S5000x64_1_0_0_1_n_n.contr.Idx) :
    (dot_S5000x128_S128x64_S5000x64_1_0_0_1_n_n.rhsIdx y q 1).val = (y 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of rows of `X` starting at row `r₀` (`hx`), times `W`, at entry `y` of the block, is entry `i` of `X · W` when `i` is
    `y` moved down by `r₀` rows. -/
theorem block_entry (X : Vec Ideal S50000x128 .f32) (W : Vec Ideal S128x64 .f32)
    (xb : Vec Ideal S5000x128 .f32) (wb : Vec Ideal S128x64 .f32) (r₀ : ℕ)
    (hx : ∀ (z : S5000x128.Idx) (j : S50000x128.Idx), (j 0).val = r₀ + (z 0).val → (j 1).val = (z 1).val → xb z = X j)
    (hw : wb = W) (y : S5000x64.Idx) (i : S50000x64.Idx) (hi0 : (i 0).val = r₀ + (y 0).val) (hi1 : (i 1).val = (y 1).val) :
    k0_pay1 (F := Ideal) xb wb y = whole X W i := by
  subst hw
  have narrow : ∀ {s : Shape} (v : FVec Ideal s .f32), truncf .bf16 v bitsLt_bf16_f32 = v := fun v => rfl
  unfold k0_pay1 whole
  simp only [matmul, narrow]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : xb (dot_S5000x128_S128x64_S5000x64_1_0_0_1_n_n.lhsIdx y ((ValueIdx.contrEquiv1 dot_S5000x128_S128x64_S5000x64_1_0_0_1_n_n 128 rfl rfl).symm k)) = X (atLeft i k) :=
    hx _ _ (by show (i 0).val = _; rw [hi0, left_row]) (by show k.val = _; rw [left_col]; exact hk.symm)
  have er : dot_S5000x128_S128x64_S5000x64_1_0_0_1_n_n.rhsIdx y ((ValueIdx.contrEquiv1 dot_S5000x128_S128x64_S5000x64_1_0_0_1_n_n 128 rfl rfl).symm k) = atRight i k := funext fun a => Fin.ext (by
    match a with
    | ⟨0, _⟩ => exact (right_row _ _).trans hk
    | ⟨1, _⟩ => exact (right_col _ _).trans hi1.symm)
  rw [el, er]

/-- The reference's one host product is the same sum. -/
theorem reference_entry (X : Vec Ideal S50000x128 .f32) (W : Vec Ideal S128x64 .f32) :
    Cert.ReferenceIdeal.Read.val_main_v0 (F := Ideal) X W = whole X W := by
  funext i
  rw [Cert.ReferenceIdeal.Read.val_main_v0_apply]
  rfl

end Cert.KernelIdeal.Product

end
-- ==== Proof.ResultIdeal.lean ====
/-
  What the program returns, over the extended reals.  The ten grid points write back ten blocks of 5000 rows, and block
  `t` is rows `5000·t … 5000·t + 4999` of `X · W` (each entry the sum over k of `X (r, k) · W (k, c)`); every row lies in
  exactly the block numbered by its quotient by 5000, so after the last point the product's result array IS `X · W`.  The
  seventy-two later host operations are, operation for operation, the ones the reference applies to ITS product `X · W`,
  which it takes in one host operation and which is the same sum.  Hence the two programs return the same array whenever
  their arguments agree: the later operations are never opened, only applied to equal values.
-/
import proofs.«414965_j24008867184975_3_alg».proof.Proof.RunIdeal
import proofs.«414965_j24008867184975_3_alg».proof.Proof.ProductEntries

set_option maxRecDepth 16384

noncomputable section

namespace Cert.KernelIdeal.Result

open Cert.KernelIdeal Cert.KernelIdeal.Gen Cert.KernelIdeal.Around Cert.KernelIdeal.Point Cert.KernelIdeal.Run Cert.KernelIdeal.Product
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The two operands of the product as the program is launched with them. -/
abbrev leftArr (c : Dev nD) : Vec Ideal S50000x128 .f32 := entryAt m c main_arg0
abbrev rightArr (c : Dev nD) : Vec Ideal S128x64 .f32 := entryAt m c main_arg2

/-- The printed index maps, decided over the ten points: at point `t` the left operand's and the result's block is number
    `t` along the rows, and the right operand's is the only one. -/
theorem block_numbers : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W`. -/
theorem wrote_back (c : Dev nD) (t : Fin cfg0.N) :
    (dats m 0 c).flushed 2 t = ((cfg0.win 2).blk t).view.read (Elt Ideal) (whole (leftArr m c) (rightArr m c)) := by
  show (cfg0.win 2).cut (grid0.coords t) ((dats m 0 c).after 2 t) = _
  rw [after_out, stored_eq]
  obtain ⟨e0, e1, e2, e3, e4, e5⟩ := block_numbers t
  funext y
  show k0_pay1 (F := Ideal) (blockAt m c 0 t) (blockAt m c 1 t) y = whole (leftArr m c) (rightArr m c) (((cfg0.win 2).blk t).view.emb y)
  refine block_entry (leftArr m c) (rightArr m c) (blockAt m c 0 t) (blockAt m c 1 t) (t.val * 5000) ?_ ?_ y _ ?_ ?_
  · intro z j h0 h1
    show leftArr m c (((cfg0.win 0).blk t).view.emb z) = leftArr m c j
    refine congrArg (leftArr m c) (funext fun a => Fin.ext ?_)
    match a with
    | ⟨0, _⟩ => show win0_0.index t (0 : Fin 2) * 5000 + 1 * (z 0).val = (j 0).val; omega
    | ⟨1, _⟩ => show win0_0.index t (1 : Fin 2) * 128 + 1 * (z 1).val = (j 1).val; omega
  · funext z
    show rightArr m c (((cfg0.win 1).blk t).view.emb z) = rightArr m c z
    refine congrArg (rightArr m c) (funext fun a => Fin.ext ?_)
    match a with
    | ⟨0, _⟩ => show win0_1.index t (0 : Fin 2) * 128 + 1 * (z 0).val = (z 0).val; omega
    | ⟨1, _⟩ => show win0_1.index t (1 : Fin 2) * 64 + 1 * (z 1).val = (z 1).val; omega
  · show win0_2.index t (0 : Fin 2) * 5000 + 1 * (y 0).val = t.val * 5000 + (y 0).val; omega
  · show win0_2.index t (1 : Fin 2) * 64 + 1 * (y 1).val = (y 1).val; omega

/-- An entry of the result array is in point `t`'s block iff each coordinate is in the block's range on its axis. -/
theorem in_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry is in some point's block: row `r` is in block `r / 5000`. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 5000 < cfg0.N := by show _ < grid0.N; rw [N_0]; omega
  obtain ⟨e0, e1, e2, e3, e4, e5⟩ := block_numbers ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [in_block]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 64 ≤ (i 1).val ∧ (i 1).val < win0_2.index ⟨(i 0).val / 5000, hN⟩ (1 : Fin 2) * 64 + 64; omega

/-- After the last point the product's result array is `X · W`. -/
theorem product_array (c : Dev nD) : (dats m 0 c).arrAt 2 cfg0.N = whole (leftArr m c) (rightArr m c) :=
  (dats m 0 c).arrAt_eq_of_cover 2 _ (fun t _ => wrote_back m c t) covered

end Cert.KernelIdeal.Result

end
-- ==== Proof.AgreeIdeal.lean ====
/-
  The two programs return the same array.  After the tiled product the result array holds `X · W`; the reference holds
  the same `X · W` after its first host operation.  From there both apply the same seventy-two host operations, reading
  besides the product only the edge list, the two attention vectors and the bias, on which the two memories agree.

  The comparison is made in three steps, along the program's own three stretches of host operations, so that no step
  compares more than one stretch's worth of operations.  The first thirty-eight operations leave, in the buffers read
  later (the edge scores before and after scaling, the comparison of the scores with zero, the target indices, the gathered
  target rows), the reference's values of those buffers.  The one operation of the second stretch chooses, entry by entry,
  between the score and the scaled score: the leaky rectifier; it leaves the reference's value.  The last thirty-three
  (the softmax over incoming edges, the weighted scatter-add, the bias) then leave the reference's result.
-/
import proofs.«414965_j24008867184975_3_alg».proof.Proof.ResultIdeal

set_option maxRecDepth 16384

noncomputable section

namespace Cert.KernelIdeal.Agree

open Cert.KernelIdeal Cert.KernelIdeal.Gen Cert.KernelIdeal.Around Cert.KernelIdeal.Run Cert.KernelIdeal.Product Cert.KernelIdeal.Result
open Idealize.ShloMosaic Idealize.ShloMosaic.TcCoe Idealize.ShloMosaic.StableHlo
open Idealize.SL Idealize.SL.Sem
open Idealize.ShloMosaic.Pipeline (Dat Cfg Window)

/-! ## The three stretches, from any contents -/

section Stretches

variable (V : Valuation τ sig (Elt Ideal))
variable (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x64, .f32⟩ : BufTy).Contents (Elt Ideal))
  (x3 x4 : (⟨Cert.ReferenceIdeal.S1x4x16, .f32⟩ : BufTy).Contents (Elt Ideal)) (x5 : (⟨Cert.ReferenceIdeal.S64, .f32⟩ : BufTy).Contents (Elt Ideal))

local macro "first_stretch" : tactic => `(tactic| (simp only [hostOps1]; after_results_simp))

set_option maxHeartbeats 4000000 in
/-- The target indices: row 1 of the edge list. -/
theorem first_targets (h1 : V (Proc.devRef .tc main_arg1) = x1) :
    StableHlo.after (hostOps1 (F := Ideal)) V (Proc.devRef .tc main_v5) = Cert.ReferenceIdeal.Read.val_main_v5 (F := Ideal) x1 := by
  first_stretch; rw [h1]; rfl

set_option maxHeartbeats 4000000 in
/-- The rows of the product gathered at the target indices. -/
theorem first_target_rows (h0 : V (Proc.devRef .tc main_v0) = Cert.ReferenceIdeal.Read.val_main_v0 (F := Ideal) x0 x2) (h1 : V (Proc.devRef .tc main_arg1) = x1) :
    StableHlo.after (hostOps1 (F := Ideal)) V (Proc.devRef .tc main_v19) = Cert.ReferenceIdeal.Read.val_main_v19 (F := Ideal) x0 x1 x2 := by
  first_stretch; rw [h0, h1]; rfl

set_option maxHeartbeats 4000000 in
/-- The edge scores. -/
theorem first_scores (h0 : V (Proc.devRef .tc main_v0) = Cert.ReferenceIdeal.Read.val_main_v0 (F := Ideal) x0 x2) (h1 : V (Proc.devRef .tc main_arg1) = x1)
    (h3 : V (Proc.devRef .tc main_arg3) = x3) (h4 : V (Proc.devRef .tc main_arg4) = x4) :
    StableHlo.after (hostOps1 (F := Ideal)) V (Proc.devRef .tc main_v26) = Cert.ReferenceIdeal.Read.val_main_v26 (F := Ideal) x0 x1 x2 x3 x4 := by
  first_stretch; rw [h0, h1, h3, h4]; rfl

set_option maxHeartbeats 4000000 in
/-- Which scores are positive. -/
theorem first_positive (h0 : V (Proc.devRef .tc main_v0) = Cert.ReferenceIdeal.Read.val_main_v0 (F := Ideal) x0 x2) (h1 : V (Proc.devRef .tc main_arg1) = x1)
    (h3 : V (Proc.devRef .tc main_arg3) = x3) (h4 : V (Proc.devRef .tc main_arg4) = x4) :
    StableHlo.after (hostOps1 (F := Ideal)) V (Proc.devRef .tc main_v28) = Cert.ReferenceIdeal.Read.val_main_v28 (F := Ideal) x0 x1 x2 x3 x4 := by
  first_stretch; rw [h0, h1, h3, h4]; rfl

set_option maxHeartbeats 4000000 in
/-- The scores scaled by the rectifier's slope. -/
theorem first_scaled (h0 : V (Proc.devRef .tc main_v0) = Cert.ReferenceIdeal.Read.val_main_v0 (F := Ideal) x0 x2) (h1 : V (Proc.devRef .tc main_arg1) = x1)
    (h3 : V (Proc.devRef .tc main_arg3) = x3) (h4 : V (Proc.devRef .tc main_arg4) = x4) :
    StableHlo.after (hostOps1 (F := Ideal)) V (Proc.devRef .tc main_v30) = Cert.ReferenceIdeal.Read.val_main_v30 (F := Ideal) x0 x1 x2 x3 x4 := by
  first_stretch; rw [h0, h1, h3, h4]; rfl

set_option maxHeartbeats 4000000 in
/-- The bias is not touched by the first stretch. -/
theorem first_bias (h5 : V (Proc.devRef .tc main_arg5) = x5) :
    StableHlo.after (hostOps1 (F := Ideal)) V (Proc.devRef .tc main_arg5) = x5 := by
  first_stretch; exact h5

/-- The second stretch is the rectifier's choice, entry by entry; -/
theorem second_rectified :
    StableHlo.after (hostOps1_1 (F := Ideal)) V (Proc.devRef .tc main_v31)
      = select (V (Proc.devRef .tc main_v28)) (V (Proc.devRef .tc main_v26)) (V (Proc.devRef .tc main_v30)) := by
  simp only [hostOps1_1]; after_results_simp; rfl

/-- it writes nothing else. -/
theorem second_keeps (b : Ref sig .tc) (hb : b ≠ main_v31) :
    StableHlo.after (hostOps1_1 (F := Ideal)) V (Proc.devRef .tc b) = V (Proc.devRef .tc b) :=
  StableHlo.after_of_forall_not_mem _ _ (List.forall_iff_forall_mem.mp (by
    simp only [hostOps1_1, List.Forall, StableHlo.ternary_writes, Finset.mem_singleton]
    exact StableHlo.devRef_ne_of_ne hb))

set_option maxHeartbeats 8000000 in
/-- The third stretch: softmax over incoming edges, weighted scatter-add, bias. -/
theorem third_result (g31 : V (Proc.devRef .tc main_v31) = Cert.ReferenceIdeal.Read.val_main_v31 (F := Ideal) x0 x1 x2 x3 x4)
    (g5 : V (Proc.devRef .tc main_v5) = Cert.ReferenceIdeal.Read.val_main_v5 (F := Ideal) x1)
    (g19 : V (Proc.devRef .tc main_v19) = Cert.ReferenceIdeal.Read.val_main_v19 (F := Ideal) x0 x1 x2)
    (gb : V (Proc.devRef .tc main_arg5) = x5) :
    StableHlo.after (hostOps1_2 (F := Ideal)) V (Proc.devRef .tc main_v58) = Cert.ReferenceIdeal.Read.val_main_v58 (F := Ideal) x0 x1 x2 x3 x4 x5 := by
  simp only [hostOps1_2]; after_results_simp
  rw [g31, g5, g19, gb]
  rfl

end Stretches

/-! ## The program's result -/

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The contents the later operations start from, at the product's result array: the reference's product of ITS operands,
    when the operands agree. -/
theorem product_agrees (c : Dev nD) (h0 : m' ((c.tc : Thread Cert.ReferenceIdeal.nD Cert.ReferenceIdeal.τ).loc Cert.ReferenceIdeal.main_arg0) = m ((c.tc : Thread nD τ).loc main_arg0))
    (h2 : m' ((c.tc : Thread Cert.ReferenceIdeal.nD Cert.ReferenceIdeal.τ).loc Cert.ReferenceIdeal.main_arg2) = m ((c.tc : Thread nD τ).loc main_arg2)) :
    (dats m 0 c).arrAt 2 cfg0.N = Cert.ReferenceIdeal.Read.val_main_v0 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) :=
  calc (dats m 0 c).arrAt 2 cfg0.N = whole (leftArr m c) (rightArr m c) := product_array m c
    _ = whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) := by rw [h0, h2]; rfl
    _ = _ := (reference_entry _ _).symm

/-- The value the program leaves in its result buffer is the value the reference's run states. -/
theorem same_result (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Pipeline.afterTail₀ cfgs (dats m) 0 (entry m) later c main_v58 = Cert.ReferenceIdeal.Value.res_main_v58 m' c := by
  unfold Pipeline.afterTail₀
  generalize hW : Pipeline.withArrays _ c _ _ = Wv
  have hv0 : Wv (Proc.devRef .tc main_v0) = Cert.ReferenceIdeal.Read.val_main_v0 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) := by
    rw [← hW]
    exact (Pipeline.withArrays_arr spec0 launch0.win.arr_inj c (entry m c) _ 2).trans (product_agrees m m' c h0 h2)
  have hv1 : Wv (Proc.devRef .tc main_arg1) = (m' ((c.tc : Thread Cert.ReferenceIdeal.nD Cert.ReferenceIdeal.τ).loc Cert.ReferenceIdeal.main_arg1)) := by
    rw [← hW]; exact (Pipeline.withArrays_of_ne spec0 c (entry m c) _ main_arg1 (by decide)).trans h1.symm
  have hv3 : Wv (Proc.devRef .tc main_arg3) = (m' ((c.tc : Thread Cert.ReferenceIdeal.nD Cert.ReferenceIdeal.τ).loc Cert.ReferenceIdeal.main_arg3)) := by
    rw [← hW]; exact (Pipeline.withArrays_of_ne spec0 c (entry m c) _ main_arg3 (by decide)).trans h3.symm
  have hv4 : Wv (Proc.devRef .tc main_arg4) = (m' ((c.tc : Thread Cert.ReferenceIdeal.nD Cert.ReferenceIdeal.τ).loc Cert.ReferenceIdeal.main_arg4)) := by
    rw [← hW]; exact (Pipeline.withArrays_of_ne spec0 c (entry m c) _ main_arg4 (by decide)).trans h4.symm
  have hv5 : Wv (Proc.devRef .tc main_arg5) = (m' ((c.tc : Thread Cert.ReferenceIdeal.nD Cert.ReferenceIdeal.τ).loc Cert.ReferenceIdeal.main_arg5)) := by
    rw [← hW]; exact (Pipeline.withArrays_of_ne spec0 c (entry m c) _ main_arg5 (by decide)).trans h5.symm
  clear hW
  have split : StableHlo.after (later (F := Ideal)).flatten Wv
      = StableHlo.after hostOps1_2 (StableHlo.after hostOps1_1 (StableHlo.after hostOps1 Wv)) := by
    simp only [later, List.flatten_cons, List.flatten_nil, List.append_nil, after_append]
  rw [split, Cert.ReferenceIdeal.Read.val_main_v58_eq]
  refine third_result _ _ _ _ _ _ _ ?_ ?_ ?_ ?_
  · rw [second_rectified, first_positive Wv _ _ _ _ _ hv0 hv1 hv3 hv4, first_scores Wv _ _ _ _ _ hv0 hv1 hv3 hv4,
      first_scaled Wv _ _ _ _ _ hv0 hv1 hv3 hv4]
    rfl
  · rw [second_keeps _ main_v5 (by decide)]; exact first_targets Wv _ hv1
  · rw [second_keeps _ main_v19 (by decide)]; exact first_target_rows Wv _ _ _ hv0 hv1
  · rw [second_keeps _ main_arg5 (by decide)]; exact first_bias Wv _ hv5

end Cert.KernelIdeal.Agree

end
-- ==== Proof.lean ====
/-
  A graph-attention layer.  The program first takes `h = X · W` (50000 × 128 times 128 × 64) as a tiled product, ten
  blocks of 5000 rows, each block's product formed after narrowing both operands to a shorter float format into an
  accumulator of zeros; then, on the host, it gathers rows of `h` at the two ends of 800000 edges, scores each edge, takes
  a softmax of the scores stabilised by their global maximum and normalised per target node by a scatter-add, and
  scatter-adds the weighted target rows, adding a bias.  The reference takes `X · W` in one host operation and then does,
  operation for operation, the same.

  Over the extended reals narrowing a float is the identity and a zero accumulator adds nothing, so each block's product
  is the corresponding rows of `X · W`, the blocks fill the array, and the two programs hand the same array to the same later
  operations: their results are equal, with no appeal to the finiteness of the inputs (only the sum over k is
  reindexed).  The edge indices are never constrained: the host gathers and scatters are total functions, so neither
  program can fault on them.

  The frames: the tiled product's run (every fair execution ends, nothing faults) for any float instance, continued by
  the later host operations, none of which writes an argument array; the reference's frame is its run with the result
  dropped.  The idealization rewrote nothing, so there is nothing to preserve.
-/
import proofs.«414965_j24008867184975_3_alg».proof.Defs
import proofs.«414965_j24008867184975_3_alg».proof.Proof.Gen.Kernel
import proofs.«414965_j24008867184975_3_alg».proof.Proof.Gen.KernelIdeal
import proofs.«414965_j24008867184975_3_alg».proof.Proof.Gen.ReferenceIdeal
import proofs.«414965_j24008867184975_3_alg».proof.Proof.Gen.Pre_finite_inputs
import proofs.«414965_j24008867184975_3_alg».proof.Proof.Gen.ReferenceIdeal.Run
import proofs.«414965_j24008867184975_3_alg».proof.Proof.Gen.ReferenceIdeal.Read
import proofs.«414965_j24008867184975_3_alg».proof.Proof.RunBits
import proofs.«414965_j24008867184975_3_alg».proof.Proof.AgreeIdeal

noncomputable section

namespace Cert.Proof

open Idealize.ShloMosaic Idealize.SL.Sem

/-- The word-level program runs and keeps its arguments. -/
theorem frame_kernel : Cert.frame_Kernel := fun m ρ _ => Cert.Kernel.Run.frame m ρ

/-- So does the idealized program. -/
theorem frame_ideal : Cert.frame_KernelIdeal := fun m ρ _ => Cert.KernelIdeal.Run.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- From memories that agree on the six arguments both programs end with the reference's composed value in the result
    buffer: the reference by its run, the program because its product's array is the reference's product and the later
    operations are the same. -/
theorem algebraic : Cert.algebraic_KernelIdeal_ReferenceIdeal := by
  intro m ρ m' ρ' _ hagree
  refine ⟨fun c => Cert.ReferenceIdeal.Value.res_main_v58 m' c, ?_, Cert.ReferenceIdeal.Value.run (F := Ideal) m' ρ'⟩
  refine (θ_run Cert.KernelIdeal.defs _ _).mono (fun r h c => ⟨?_, Cert.KernelIdeal.Run.arguments_kept m h c⟩)
    (Cert.KernelIdeal.Run.run m ρ)
  exact ((h c).2 Cert.KernelIdeal.main_v58 (Pipeline.mem_restRefs_of Cert.KernelIdeal.main_v58 (by decide) (by decide))).trans
    (Cert.KernelIdeal.Agree.same_result m m' c (hagree c).1 (hagree c).2.1 (hagree c).2.2.1 (hagree c).2.2.2.1
      (hagree c).2.2.2.2.1 (hagree c).2.2.2.2.2)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
